-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x64x32 : Shape := ⟨3, ![8192, 64, 32]⟩
abbrev S_ : Shape := ⟨0, ![]⟩

class Facts : Prop where
  bcast_S_S8192x64x32 : S_.BroadcastsInDim S8192x64x32 (![] : Fin 0 → Fin S8192x64x32.rank)
  reducesTo_S8192x64x32_S_d0_1_2 : S8192x64x32.ReducesTo [0, 1, 2] S_
  h_S_ : 0 < S_.numel

variable [Facts]

def fn {F : FTy → Type} [FloatOps F] (main_arg0 : FVec F S8192x64x32 .f32) : IVec S_ 1 :=
  let main_v0 : FVec F S8192x64x32 .f32 := Host.absf main_arg0
  let main_cst : FVec F S_ .f32 := constant S_ .f32 0x7F800000#32
  let main_v1 : FVec F S8192x64x32 .f32 := broadcastInDim S8192x64x32 ![] bcast_S_S8192x64x32 main_cst
  let main_v2 : IVec S8192x64x32 1 := cmpf .olt main_v0 main_v1
  let main_c : IVec S_ 1 := constantI S_ 1 1#1
  let main_v3 : IVec S_ 1 := (fun x v => Host.reduce IntOp.andi x v reducesTo_S8192x64x32_S_d0_1_2 h_S_) main_v2 main_c
  main_v3
-- ==== Kernel.lean ====
abbrev S8192x64x32 : Shape := ⟨3, ![8192, 64, 32]⟩
abbrev S8192x2016 : Shape := ⟨2, ![8192, 2016]⟩
abbrev S512x64x32 : Shape := ⟨3, ![512, 64, 32]⟩
abbrev S512x2016 : Shape := ⟨2, ![512, 2016]⟩
abbrev S512x64x64 : Shape := ⟨3, ![512, 64, 64]⟩
abbrev S512x1x63 : Shape := ⟨3, ![512, 1, 63]⟩
abbrev S512x63 : Shape := ⟨2, ![512, 63]⟩
abbrev S512x1x62 : Shape := ⟨3, ![512, 1, 62]⟩
abbrev S512x62 : Shape := ⟨2, ![512, 62]⟩
abbrev S512x1x61 : Shape := ⟨3, ![512, 1, 61]⟩
abbrev S512x61 : Shape := ⟨2, ![512, 61]⟩
abbrev S512x1x60 : Shape := ⟨3, ![512, 1, 60]⟩
abbrev S512x60 : Shape := ⟨2, ![512, 60]⟩
abbrev S512x1x59 : Shape := ⟨3, ![512, 1, 59]⟩
abbrev S512x59 : Shape := ⟨2, ![512, 59]⟩
abbrev S512x1x58 : Shape := ⟨3, ![512, 1, 58]⟩
abbrev S512x58 : Shape := ⟨2, ![512, 58]⟩
abbrev S512x1x57 : Shape := ⟨3, ![512, 1, 57]⟩
abbrev S512x57 : Shape := ⟨2, ![512, 57]⟩
abbrev S512x1x56 : Shape := ⟨3, ![512, 1, 56]⟩
abbrev S512x56 : Shape := ⟨2, ![512, 56]⟩
abbrev S512x1x55 : Shape := ⟨3, ![512, 1, 55]⟩
abbrev S512x55 : Shape := ⟨2, ![512, 55]⟩
abbrev S512x1x54 : Shape := ⟨3, ![512, 1, 54]⟩
abbrev S512x54 : Shape := ⟨2, ![512, 54]⟩
abbrev S512x1x53 : Shape := ⟨3, ![512, 1, 53]⟩
abbrev S512x53 : Shape := ⟨2, ![512, 53]⟩
abbrev S512x1x52 : Shape := ⟨3, ![512, 1, 52]⟩
abbrev S512x52 : Shape := ⟨2, ![512, 52]⟩
abbrev S512x1x51 : Shape := ⟨3, ![512, 1, 51]⟩
abbrev S512x51 : Shape := ⟨2, ![512, 51]⟩
abbrev S512x1x50 : Shape := ⟨3, ![512, 1, 50]⟩
abbrev S512x50 : Shape := ⟨2, ![512, 50]⟩
abbrev S512x1x49 : Shape := ⟨3, ![512, 1, 49]⟩
abbrev S512x49 : Shape := ⟨2, ![512, 49]⟩
abbrev S512x1x48 : Shape := ⟨3, ![512, 1, 48]⟩
abbrev S512x48 : Shape := ⟨2, ![512, 48]⟩
abbrev S512x1x47 : Shape := ⟨3, ![512, 1, 47]⟩
abbrev S512x47 : Shape := ⟨2, ![512, 47]⟩
abbrev S512x1x46 : Shape := ⟨3, ![512, 1, 46]⟩
abbrev S512x46 : Shape := ⟨2, ![512, 46]⟩
abbrev S512x1x45 : Shape := ⟨3, ![512, 1, 45]⟩
abbrev S512x45 : Shape := ⟨2, ![512, 45]⟩
abbrev S512x1x44 : Shape := ⟨3, ![512, 1, 44]⟩
abbrev S512x44 : Shape := ⟨2, ![512, 44]⟩
abbrev S512x1x43 : Shape := ⟨3, ![512, 1, 43]⟩
abbrev S512x43 : Shape := ⟨2, ![512, 43]⟩
abbrev S512x1x42 : Shape := ⟨3, ![512, 1, 42]⟩
abbrev S512x42 : Shape := ⟨2, ![512, 42]⟩
abbrev S512x1x41 : Shape := ⟨3, ![512, 1, 41]⟩
abbrev S512x41 : Shape := ⟨2, ![512, 41]⟩
abbrev S512x1x40 : Shape := ⟨3, ![512, 1, 40]⟩
abbrev S512x40 : Shape := ⟨2, ![512, 40]⟩
abbrev S512x1x39 : Shape := ⟨3, ![512, 1, 39]⟩
abbrev S512x39 : Shape := ⟨2, ![512, 39]⟩
abbrev S512x1x38 : Shape := ⟨3, ![512, 1, 38]⟩
abbrev S512x38 : Shape := ⟨2, ![512, 38]⟩
abbrev S512x1x37 : Shape := ⟨3, ![512, 1, 37]⟩
abbrev S512x37 : Shape := ⟨2, ![512, 37]⟩
abbrev S512x1x36 : Shape := ⟨3, ![512, 1, 36]⟩
abbrev S512x36 : Shape := ⟨2, ![512, 36]⟩
abbrev S512x1x35 : Shape := ⟨3, ![512, 1, 35]⟩
abbrev S512x35 : Shape := ⟨2, ![512, 35]⟩
abbrev S512x1x34 : Shape := ⟨3, ![512, 1, 34]⟩
abbrev S512x34 : Shape := ⟨2, ![512, 34]⟩
abbrev S512x1x33 : Shape := ⟨3, ![512, 1, 33]⟩
abbrev S512x33 : Shape := ⟨2, ![512, 33]⟩
abbrev S512x1x32 : Shape := ⟨3, ![512, 1, 32]⟩
abbrev S512x32 : Shape := ⟨2, ![512, 32]⟩
abbrev S512x1x31 : Shape := ⟨3, ![512, 1, 31]⟩
abbrev S512x31 : Shape := ⟨2, ![512, 31]⟩
abbrev S512x1x30 : Shape := ⟨3, ![512, 1, 30]⟩
abbrev S512x30 : Shape := ⟨2, ![512, 30]⟩
abbrev S512x1x29 : Shape := ⟨3, ![512, 1, 29]⟩
abbrev S512x29 : Shape := ⟨2, ![512, 29]⟩
abbrev S512x1x28 : Shape := ⟨3, ![512, 1, 28]⟩
abbrev S512x28 : Shape := ⟨2, ![512, 28]⟩
abbrev S512x1x27 : Shape := ⟨3, ![512, 1, 27]⟩
abbrev S512x27 : Shape := ⟨2, ![512, 27]⟩
abbrev S512x1x26 : Shape := ⟨3, ![512, 1, 26]⟩
abbrev S512x26 : Shape := ⟨2, ![512, 26]⟩
abbrev S512x1x25 : Shape := ⟨3, ![512, 1, 25]⟩
abbrev S512x25 : Shape := ⟨2, ![512, 25]⟩
abbrev S512x1x24 : Shape := ⟨3, ![512, 1, 24]⟩
abbrev S512x24 : Shape := ⟨2, ![512, 24]⟩
abbrev S512x1x23 : Shape := ⟨3, ![512, 1, 23]⟩
abbrev S512x23 : Shape := ⟨2, ![512, 23]⟩
abbrev S512x1x22 : Shape := ⟨3, ![512, 1, 22]⟩
abbrev S512x22 : Shape := ⟨2, ![512, 22]⟩
abbrev S512x1x21 : Shape := ⟨3, ![512, 1, 21]⟩
abbrev S512x21 : Shape := ⟨2, ![512, 21]⟩
abbrev S512x1x20 : Shape := ⟨3, ![512, 1, 20]⟩
abbrev S512x20 : Shape := ⟨2, ![512, 20]⟩
abbrev S512x1x19 : Shape := ⟨3, ![512, 1, 19]⟩
abbrev S512x19 : Shape := ⟨2, ![512, 19]⟩
abbrev S512x1x18 : Shape := ⟨3, ![512, 1, 18]⟩
abbrev S512x18 : Shape := ⟨2, ![512, 18]⟩
abbrev S512x1x17 : Shape := ⟨3, ![512, 1, 17]⟩
abbrev S512x17 : Shape := ⟨2, ![512, 17]⟩
abbrev S512x1x16 : Shape := ⟨3, ![512, 1, 16]⟩
abbrev S512x16 : Shape := ⟨2, ![512, 16]⟩
abbrev S512x1x15 : Shape := ⟨3, ![512, 1, 15]⟩
abbrev S512x15 : Shape := ⟨2, ![512, 15]⟩
abbrev S512x1x14 : Shape := ⟨3, ![512, 1, 14]⟩
abbrev S512x14 : Shape := ⟨2, ![512, 14]⟩
abbrev S512x1x13 : Shape := ⟨3, ![512, 1, 13]⟩
abbrev S512x13 : Shape := ⟨2, ![512, 13]⟩
abbrev S512x1x12 : Shape := ⟨3, ![512, 1, 12]⟩
abbrev S512x12 : Shape := ⟨2, ![512, 12]⟩
abbrev S512x1x11 : Shape := ⟨3, ![512, 1, 11]⟩
abbrev S512x11 : Shape := ⟨2, ![512, 11]⟩
abbrev S512x1x10 : Shape := ⟨3, ![512, 1, 10]⟩
abbrev S512x10 : Shape := ⟨2, ![512, 10]⟩
abbrev S512x1x9 : Shape := ⟨3, ![512, 1, 9]⟩
abbrev S512x9 : Shape := ⟨2, ![512, 9]⟩
abbrev S512x1x8 : Shape := ⟨3, ![512, 1, 8]⟩
abbrev S512x8 : Shape := ⟨2, ![512, 8]⟩
abbrev S512x1x7 : Shape := ⟨3, ![512, 1, 7]⟩
abbrev S512x7 : Shape := ⟨2, ![512, 7]⟩
abbrev S512x1x6 : Shape := ⟨3, ![512, 1, 6]⟩
abbrev S512x6 : Shape := ⟨2, ![512, 6]⟩
abbrev S512x1x5 : Shape := ⟨3, ![512, 1, 5]⟩
abbrev S512x5 : Shape := ⟨2, ![512, 5]⟩
abbrev S512x1x4 : Shape := ⟨3, ![512, 1, 4]⟩
abbrev S512x4 : Shape := ⟨2, ![512, 4]⟩
abbrev S512x1x3 : Shape := ⟨3, ![512, 1, 3]⟩
abbrev S512x3 : Shape := ⟨2, ![512, 3]⟩
abbrev S512x1x2 : Shape := ⟨3, ![512, 1, 2]⟩
abbrev S512x2 : Shape := ⟨2, ![512, 2]⟩
abbrev S512x1x1 : Shape := ⟨3, ![512, 1, 1]⟩
abbrev S512x1 : Shape := ⟨2, ![512, 1]⟩

abbrev nBuf : Space → Nat
  | .hbm => 2
  | .vmem => 4
  | .smem => 0
  | _ => 0

abbrev bufTy : (tb : Table) → Fin (tcTables nBuf tb) → BufTy
  | .hbm, ⟨0, _⟩ => ⟨S8192x64x32, .f32⟩
  | .hbm, ⟨1, _⟩ => ⟨S8192x2016, .f32⟩
  | .local _ .vmem, ⟨0, _⟩ => ⟨S512x64x32, .f32⟩
  | .local _ .vmem, ⟨1, _⟩ => ⟨S512x64x32, .f32⟩
  | .local _ .vmem, ⟨2, _⟩ => ⟨S512x2016, .f32⟩
  | .local _ .vmem, ⟨3, _⟩ => ⟨S512x2016, .f32⟩
  | _, _ => ⟨S8192x64x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x64x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2016 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S512x64x32_S512x64x32_0_0_0 : ∀ a, (![0, 0, 0] : Fin 3 → Nat) a + S512x64x32.size a ≤ S512x64x32.size a
  h_S512x64x32 : 0 < S512x64x32.numel
  slices_S512x64x64_o0_0_1_S512x1x63 : S512x64x64.Slices ![0, 0, 1] S512x1x63
  shapeCasts_S512x1x63_S512x63 : S512x1x63.ShapeCasts S512x63
  slices_S512x64x64_o0_1_2_S512x1x62 : S512x64x64.Slices ![0, 1, 2] S512x1x62
  shapeCasts_S512x1x62_S512x62 : S512x1x62.ShapeCasts S512x62
  slices_S512x64x64_o0_2_3_S512x1x61 : S512x64x64.Slices ![0, 2, 3] S512x1x61
  shapeCasts_S512x1x61_S512x61 : S512x1x61.ShapeCasts S512x61
  slices_S512x64x64_o0_3_4_S512x1x60 : S512x64x64.Slices ![0, 3, 4] S512x1x60
  shapeCasts_S512x1x60_S512x60 : S512x1x60.ShapeCasts S512x60
  slices_S512x64x64_o0_4_5_S512x1x59 : S512x64x64.Slices ![0, 4, 5] S512x1x59
  shapeCasts_S512x1x59_S512x59 : S512x1x59.ShapeCasts S512x59
  slices_S512x64x64_o0_5_6_S512x1x58 : S512x64x64.Slices ![0, 5, 6] S512x1x58
  shapeCasts_S512x1x58_S512x58 : S512x1x58.ShapeCasts S512x58
  slices_S512x64x64_o0_6_7_S512x1x57 : S512x64x64.Slices ![0, 6, 7] S512x1x57
  shapeCasts_S512x1x57_S512x57 : S512x1x57.ShapeCasts S512x57
  slices_S512x64x64_o0_7_8_S512x1x56 : S512x64x64.Slices ![0, 7, 8] S512x1x56
  shapeCasts_S512x1x56_S512x56 : S512x1x56.ShapeCasts S512x56
  slices_S512x64x64_o0_8_9_S512x1x55 : S512x64x64.Slices ![0, 8, 9] S512x1x55
  shapeCasts_S512x1x55_S512x55 : S512x1x55.ShapeCasts S512x55
  slices_S512x64x64_o0_9_10_S512x1x54 : S512x64x64.Slices ![0, 9, 10] S512x1x54
  shapeCasts_S512x1x54_S512x54 : S512x1x54.ShapeCasts S512x54
  slices_S512x64x64_o0_10_11_S512x1x53 : S512x64x64.Slices ![0, 10, 11] S512x1x53
  shapeCasts_S512x1x53_S512x53 : S512x1x53.ShapeCasts S512x53
  slices_S512x64x64_o0_11_12_S512x1x52 : S512x64x64.Slices ![0, 11, 12] S512x1x52
  shapeCasts_S512x1x52_S512x52 : S512x1x52.ShapeCasts S512x52
  slices_S512x64x64_o0_12_13_S512x1x51 : S512x64x64.Slices ![0, 12, 13] S512x1x51
  shapeCasts_S512x1x51_S512x51 : S512x1x51.ShapeCasts S512x51
  slices_S512x64x64_o0_13_14_S512x1x50 : S512x64x64.Slices ![0, 13, 14] S512x1x50
  shapeCasts_S512x1x50_S512x50 : S512x1x50.ShapeCasts S512x50
  slices_S512x64x64_o0_14_15_S512x1x49 : S512x64x64.Slices ![0, 14, 15] S512x1x49
  shapeCasts_S512x1x49_S512x49 : S512x1x49.ShapeCasts S512x49
  slices_S512x64x64_o0_15_16_S512x1x48 : S512x64x64.Slices ![0, 15, 16] S512x1x48
  shapeCasts_S512x1x48_S512x48 : S512x1x48.ShapeCasts S512x48
  slices_S512x64x64_o0_16_17_S512x1x47 : S512x64x64.Slices ![0, 16, 17] S512x1x47
  shapeCasts_S512x1x47_S512x47 : S512x1x47.ShapeCasts S512x47
  slices_S512x64x64_o0_17_18_S512x1x46 : S512x64x64.Slices ![0, 17, 18] S512x1x46
  shapeCasts_S512x1x46_S512x46 : S512x1x46.ShapeCasts S512x46
  slices_S512x64x64_o0_18_19_S512x1x45 : S512x64x64.Slices ![0, 18, 19] S512x1x45
  shapeCasts_S512x1x45_S512x45 : S512x1x45.ShapeCasts S512x45
  slices_S512x64x64_o0_19_20_S512x1x44 : S512x64x64.Slices ![0, 19, 20] S512x1x44
  shapeCasts_S512x1x44_S512x44 : S512x1x44.ShapeCasts S512x44
  slices_S512x64x64_o0_20_21_S512x1x43 : S512x64x64.Slices ![0, 20, 21] S512x1x43
  shapeCasts_S512x1x43_S512x43 : S512x1x43.ShapeCasts S512x43
  slices_S512x64x64_o0_21_22_S512x1x42 : S512x64x64.Slices ![0, 21, 22] S512x1x42
  shapeCasts_S512x1x42_S512x42 : S512x1x42.ShapeCasts S512x42
  slices_S512x64x64_o0_22_23_S512x1x41 : S512x64x64.Slices ![0, 22, 23] S512x1x41
  shapeCasts_S512x1x41_S512x41 : S512x1x41.ShapeCasts S512x41
  slices_S512x64x64_o0_23_24_S512x1x40 : S512x64x64.Slices ![0, 23, 24] S512x1x40
  shapeCasts_S512x1x40_S512x40 : S512x1x40.ShapeCasts S512x40
  slices_S512x64x64_o0_24_25_S512x1x39 : S512x64x64.Slices ![0, 24, 25] S512x1x39
  shapeCasts_S512x1x39_S512x39 : S512x1x39.ShapeCasts S512x39
  slices_S512x64x64_o0_25_26_S512x1x38 : S512x64x64.Slices ![0, 25, 26] S512x1x38
  shapeCasts_S512x1x38_S512x38 : S512x1x38.ShapeCasts S512x38
  slices_S512x64x64_o0_26_27_S512x1x37 : S512x64x64.Slices ![0, 26, 27] S512x1x37
  shapeCasts_S512x1x37_S512x37 : S512x1x37.ShapeCasts S512x37
  slices_S512x64x64_o0_27_28_S512x1x36 : S512x64x64.Slices ![0, 27, 28] S512x1x36
  shapeCasts_S512x1x36_S512x36 : S512x1x36.ShapeCasts S512x36
  slices_S512x64x64_o0_28_29_S512x1x35 : S512x64x64.Slices ![0, 28, 29] S512x1x35
  shapeCasts_S512x1x35_S512x35 : S512x1x35.ShapeCasts S512x35
  slices_S512x64x64_o0_29_30_S512x1x34 : S512x64x64.Slices ![0, 29, 30] S512x1x34
  shapeCasts_S512x1x34_S512x34 : S512x1x34.ShapeCasts S512x34
  slices_S512x64x64_o0_30_31_S512x1x33 : S512x64x64.Slices ![0, 30, 31] S512x1x33
  shapeCasts_S512x1x33_S512x33 : S512x1x33.ShapeCasts S512x33
  slices_S512x64x64_o0_31_32_S512x1x32 : S512x64x64.Slices ![0, 31, 32] S512x1x32
  shapeCasts_S512x1x32_S512x32 : S512x1x32.ShapeCasts S512x32
  slices_S512x64x64_o0_32_33_S512x1x31 : S512x64x64.Slices ![0, 32, 33] S512x1x31
  shapeCasts_S512x1x31_S512x31 : S512x1x31.ShapeCasts S512x31
  slices_S512x64x64_o0_33_34_S512x1x30 : S512x64x64.Slices ![0, 33, 34] S512x1x30
  shapeCasts_S512x1x30_S512x30 : S512x1x30.ShapeCasts S512x30
  slices_S512x64x64_o0_34_35_S512x1x29 : S512x64x64.Slices ![0, 34, 35] S512x1x29
  shapeCasts_S512x1x29_S512x29 : S512x1x29.ShapeCasts S512x29
  slices_S512x64x64_o0_35_36_S512x1x28 : S512x64x64.Slices ![0, 35, 36] S512x1x28
  shapeCasts_S512x1x28_S512x28 : S512x1x28.ShapeCasts S512x28
  slices_S512x64x64_o0_36_37_S512x1x27 : S512x64x64.Slices ![0, 36, 37] S512x1x27
  shapeCasts_S512x1x27_S512x27 : S512x1x27.ShapeCasts S512x27
  slices_S512x64x64_o0_37_38_S512x1x26 : S512x64x64.Slices ![0, 37, 38] S512x1x26
  shapeCasts_S512x1x26_S512x26 : S512x1x26.ShapeCasts S512x26
  slices_S512x64x64_o0_38_39_S512x1x25 : S512x64x64.Slices ![0, 38, 39] S512x1x25
  shapeCasts_S512x1x25_S512x25 : S512x1x25.ShapeCasts S512x25
  slices_S512x64x64_o0_39_40_S512x1x24 : S512x64x64.Slices ![0, 39, 40] S512x1x24
  shapeCasts_S512x1x24_S512x24 : S512x1x24.ShapeCasts S512x24
  slices_S512x64x64_o0_40_41_S512x1x23 : S512x64x64.Slices ![0, 40, 41] S512x1x23
  shapeCasts_S512x1x23_S512x23 : S512x1x23.ShapeCasts S512x23
  slices_S512x64x64_o0_41_42_S512x1x22 : S512x64x64.Slices ![0, 41, 42] S512x1x22
  shapeCasts_S512x1x22_S512x22 : S512x1x22.ShapeCasts S512x22
  slices_S512x64x64_o0_42_43_S512x1x21 : S512x64x64.Slices ![0, 42, 43] S512x1x21
  shapeCasts_S512x1x21_S512x21 : S512x1x21.ShapeCasts S512x21
  slices_S512x64x64_o0_43_44_S512x1x20 : S512x64x64.Slices ![0, 43, 44] S512x1x20
  shapeCasts_S512x1x20_S512x20 : S512x1x20.ShapeCasts S512x20
  slices_S512x64x64_o0_44_45_S512x1x19 : S512x64x64.Slices ![0, 44, 45] S512x1x19
  shapeCasts_S512x1x19_S512x19 : S512x1x19.ShapeCasts S512x19
  slices_S512x64x64_o0_45_46_S512x1x18 : S512x64x64.Slices ![0, 45, 46] S512x1x18
  shapeCasts_S512x1x18_S512x18 : S512x1x18.ShapeCasts S512x18
  slices_S512x64x64_o0_46_47_S512x1x17 : S512x64x64.Slices ![0, 46, 47] S512x1x17
  shapeCasts_S512x1x17_S512x17 : S512x1x17.ShapeCasts S512x17
  slices_S512x64x64_o0_47_48_S512x1x16 : S512x64x64.Slices ![0, 47, 48] S512x1x16
  shapeCasts_S512x1x16_S512x16 : S512x1x16.ShapeCasts S512x16
  slices_S512x64x64_o0_48_49_S512x1x15 : S512x64x64.Slices ![0, 48, 49] S512x1x15
  shapeCasts_S512x1x15_S512x15 : S512x1x15.ShapeCasts S512x15
  slices_S512x64x64_o0_49_50_S512x1x14 : S512x64x64.Slices ![0, 49, 50] S512x1x14
  shapeCasts_S512x1x14_S512x14 : S512x1x14.ShapeCasts S512x14
  slices_S512x64x64_o0_50_51_S512x1x13 : S512x64x64.Slices ![0, 50, 51] S512x1x13
  shapeCasts_S512x1x13_S512x13 : S512x1x13.ShapeCasts S512x13
  slices_S512x64x64_o0_51_52_S512x1x12 : S512x64x64.Slices ![0, 51, 52] S512x1x12
  shapeCasts_S512x1x12_S512x12 : S512x1x12.ShapeCasts S512x12
  slices_S512x64x64_o0_52_53_S512x1x11 : S512x64x64.Slices ![0, 52, 53] S512x1x11
  shapeCasts_S512x1x11_S512x11 : S512x1x11.ShapeCasts S512x11
  slices_S512x64x64_o0_53_54_S512x1x10 : S512x64x64.Slices ![0, 53, 54] S512x1x10
  shapeCasts_S512x1x10_S512x10 : S512x1x10.ShapeCasts S512x10
  slices_S512x64x64_o0_54_55_S512x1x9 : S512x64x64.Slices ![0, 54, 55] S512x1x9
  shapeCasts_S512x1x9_S512x9 : S512x1x9.ShapeCasts S512x9
  slices_S512x64x64_o0_55_56_S512x1x8 : S512x64x64.Slices ![0, 55, 56] S512x1x8
  shapeCasts_S512x1x8_S512x8 : S512x1x8.ShapeCasts S512x8
  slices_S512x64x64_o0_56_57_S512x1x7 : S512x64x64.Slices ![0, 56, 57] S512x1x7
  shapeCasts_S512x1x7_S512x7 : S512x1x7.ShapeCasts S512x7
  slices_S512x64x64_o0_57_58_S512x1x6 : S512x64x64.Slices ![0, 57, 58] S512x1x6
  shapeCasts_S512x1x6_S512x6 : S512x1x6.ShapeCasts S512x6
  slices_S512x64x64_o0_58_59_S512x1x5 : S512x64x64.Slices ![0, 58, 59] S512x1x5
  shapeCasts_S512x1x5_S512x5 : S512x1x5.ShapeCasts S512x5
  slices_S512x64x64_o0_59_60_S512x1x4 : S512x64x64.Slices ![0, 59, 60] S512x1x4
  shapeCasts_S512x1x4_S512x4 : S512x1x4.ShapeCasts S512x4
  slices_S512x64x64_o0_60_61_S512x1x3 : S512x64x64.Slices ![0, 60, 61] S512x1x3
  shapeCasts_S512x1x3_S512x3 : S512x1x3.ShapeCasts S512x3
  slices_S512x64x64_o0_61_62_S512x1x2 : S512x64x64.Slices ![0, 61, 62] S512x1x2
  shapeCasts_S512x1x2_S512x2 : S512x1x2.ShapeCasts S512x2
  slices_S512x64x64_o0_62_63_S512x1x1 : S512x64x64.Slices ![0, 62, 63] S512x1x1
  shapeCasts_S512x1x1_S512x1 : S512x1x1.ShapeCasts S512x1
  concatenates_S512x63_S512x62_S512x61_S512x60_S512x59_S512x58_S512x57_S512x56_S512x55_S512x54_S512x53_S512x52_S512x51_S512x50_S512x49_S512x48_S512x47_S512x46_S512x45_S512x44_S512x43_S512x42_S512x41_S512x40_S512x39_S512x38_S512x37_S512x36_S512x35_S512x34_S512x33_S512x32_S512x31_S512x30_S512x29_S512x28_S512x27_S512x26_S512x25_S512x24_S512x23_S512x22_S512x21_S512x20_S512x19_S512x18_S512x17_S512x16_S512x15_S512x14_S512x13_S512x12_S512x11_S512x10_S512x9_S512x8_S512x7_S512x6_S512x5_S512x4_S512x3_S512x2_S512x1_S512x2016_d1 : Shape.Concatenates (S512x63 :: S512x62 :: S512x61 :: S512x60 :: S512x59 :: S512x58 :: S512x57 :: S512x56 :: S512x55 :: S512x54 :: S512x53 :: S512x52 :: S512x51 :: S512x50 :: S512x49 :: S512x48 :: S512x47 :: S512x46 :: S512x45 :: S512x44 :: S512x43 :: S512x42 :: S512x41 :: S512x40 :: S512x39 :: S512x38 :: S512x37 :: S512x36 :: S512x35 :: S512x34 :: S512x33 :: S512x32 :: S512x31 :: S512x30 :: S512x29 :: S512x28 :: S512x27 :: S512x26 :: S512x25 :: S512x24 :: S512x23 :: S512x22 :: S512x21 :: S512x20 :: S512x19 :: S512x18 :: S512x17 :: S512x16 :: S512x15 :: S512x14 :: S512x13 :: S512x12 :: S512x11 :: S512x10 :: S512x9 :: S512x8 :: S512x7 :: S512x6 :: S512x5 :: S512x4 :: S512x3 :: S512x2 :: S512x1 :: []) S512x2016 1
  inb_S512x2016_S512x2016_0_0 : ∀ a, (![0, 0] : Fin 2 → Nat) a + S512x2016.size a ≤ S512x2016.size a
  h_S512x2016 : 0 < S512x2016.numel
  dot_S512x64x32_S512x64x32_S512x64x64_2_2_1_1_0_0_wf : DotDims.WF S512x64x32 S512x64x32 S512x64x64 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x64x32.size a ≤ S8192x64x32.size a
  hwx0_0 : ∀ i : grid0.Coords, EltTy.bits .f32 = 32 ∨ (Rect.block (s := S8192x64x32) S512x64x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2016.size a ≤ S8192x2016.size a
  hwx0_1 : ∀ i : grid0.Coords, EltTy.bits .f32 = 32 ∨ (Rect.block (s := S8192x2016) S512x2016.size (cc0_transform_1 i) (hinb0_1 i)).WholeWords (EltTy.packing .f32)

variable [Facts₀]

def dot_S512x64x32_S512x64x32_S512x64x64_2_2_1_1_0_0 : DotDims S512x64x32 S512x64x32 S512x64x64 where
  lhsContracting := [2]
  rhsContracting := [2]
  lhsNonContracting := [1]
  rhsNonContracting := [1]
  lhsBatch := [0]
  rhsBatch := [0]
  wf := dot_S512x64x32_S512x64x32_S512x64x64_2_2_1_1_0_0_wf

abbrev win0_0 : Pipeline.Window sig grid0 :=
  Pipeline.Window.ofSpec (Memref.whole main_arg0) S512x64x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x2016.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S8192x64x32 : Shape := ⟨3, ![8192, 64, 32]⟩
abbrev S2016 : Shape := ⟨1, ![2016]⟩
abbrev S8192x64x64 : Shape := ⟨3, ![8192, 64, 64]⟩
abbrev S_ : Shape := ⟨0, ![]⟩
abbrev S2016x1 : Shape := ⟨2, ![2016, 1]⟩
abbrev S2016x2 : Shape := ⟨2, ![2016, 2]⟩
abbrev S8192x2016 : Shape := ⟨2, ![8192, 2016]⟩

abbrev nBuf : Space → Nat
  | .hbm => 18
  | .vmem => 0
  | .smem => 0
  | _ => 0

abbrev bufTy : (tb : Table) → Fin (tcTables nBuf tb) → BufTy
  | .hbm, ⟨0, _⟩ => ⟨S8192x64x32, .f32⟩
  | .hbm, ⟨1, _⟩ => ⟨S2016, .i32⟩
  | .hbm, ⟨2, _⟩ => ⟨S2016, .i1⟩
  | .hbm, ⟨3, _⟩ => ⟨S2016, .i32⟩
  | .hbm, ⟨4, _⟩ => ⟨S2016, .i1⟩
  | .hbm, ⟨5, _⟩ => ⟨S8192x64x64, .f32⟩
  | .hbm, ⟨6, _⟩ => ⟨S_, .i32⟩
  | .hbm, ⟨7, _⟩ => ⟨S2016, .i32⟩
  | .hbm, ⟨8, _⟩ => ⟨S2016, .i32⟩
  | .hbm, ⟨9, _⟩ => ⟨S2016, .i32⟩
  | .hbm, ⟨10, _⟩ => ⟨S_, .i32⟩
  | .hbm, ⟨11, _⟩ => ⟨S2016, .i32⟩
  | .hbm, ⟨12, _⟩ => ⟨S2016, .i32⟩
  | .hbm, ⟨13, _⟩ => ⟨S2016, .i32⟩
  | .hbm, ⟨14, _⟩ => ⟨S2016x1, .i32⟩
  | .hbm, ⟨15, _⟩ => ⟨S2016x1, .i32⟩
  | .hbm, ⟨16, _⟩ => ⟨S2016x2, .i32⟩
  | .hbm, ⟨17, _⟩ => ⟨S8192x2016, .f32⟩
  | _, _ => ⟨S8192x64x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_c_1 : Ref sig .tc := ⟨.hbm, 3, rfl⟩
abbrev main_c_2 : Ref sig .tc := ⟨.hbm, 4, rfl⟩
abbrev main_v0 : Ref sig .tc := ⟨.hbm, 5, rfl⟩
abbrev main_c_3 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c_4 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩

abbrev nD : Nat := 1
abbrev τ : Topo := Topo.v7x

variable {F : FTy → Type} [FloatOps F]

class Facts₀ : Prop where
  bcast_S_S2016 : S_.BroadcastsInDim S2016 (![] : Fin 0 → Fin S2016.rank)
  bcast_S2016_S2016x1_0 : S2016.BroadcastsInDim S2016x1 (![0] : Fin 1 → Fin S2016x1.rank)
  concatenates_S2016x1_S2016x1_S2016x2_d1 : Shape.Concatenates [S2016x1, S2016x1] S2016x2 1
  dot_S8192x64x32_S8192x64x32_S8192x64x64_2_2_1_1_0_0_wf : DotDims.WF S8192x64x32 S8192x64x32 S8192x64x64 [2] [2] [1] [1] [0] [0]
  gather_S8192x64x64_S2016x2_S8192x2016_0_12_n_n_12_1_819211_wf : GatherDims.WF S8192x64x64 S2016x2 S8192x2016 [0] [1, 2] [] [1, 2] [] 1 ![8192, 1, 1]

variable [Facts₀]

def dot_S8192x64x32_S8192x64x32_S8192x64x64_2_2_1_1_0_0 : DotDims S8192x64x32 S8192x64x32 S8192x64x64 where
  lhsContracting := [2]
  rhsContracting := [2]
  lhsNonContracting := [1]
  rhsNonContracting := [1]
  lhsBatch := [0]
  rhsBatch := [0]
  wf := dot_S8192x64x32_S8192x64x32_S8192x64x64_2_2_1_1_0_0_wf
def gather_S8192x64x64_S2016x2_S8192x2016_0_12_n_n_12_1_819211 : GatherDims S8192x64x64 S2016x2 S8192x2016 where
  offsetDims := [0]
  collapsedSliceDims := [1, 2]
  operandBatchingDims := []
  startIndicesBatchingDims := []
  startIndexMap := [1, 2]
  indexVectorDim := 1
  sliceSizes := ![8192, 1, 1]
  wf := gather_S8192x64x64_S2016x2_S8192x2016_0_12_n_n_12_1_819211_wf

class Facts : Prop extends Facts₀ where

variable [Facts]
-- ==== Proof.LibGramPairs.lean ====
/-
  Two general facts about arrays read at an index, over any extents.

  * A batched product that contracts the LAST axis of two rank-3 arrays `x : [B, M, K]`, `y : [B, N, K]` over a shared
    leading batch axis: the sum over the contraction index, in which a `tpu.matmul` into the zero accumulator and a
    host `dot_general` are both read at the ideal values, is `Σ_d x[b, i, d] · y[b, j, d]` at output index `(b, i, j)`.
    It is stated for any dimension record whose operand indices have, axis by axis, the coordinates a batched product has
    (six equations, each closed by `rfl` at a literal record), so one statement serves records of different batch extents.
  * The tail of one row of a rank-3 array `W : [R, M, N]`: the unit-stride slice of shape `[R, 1, n]` at offsets
    `(0, k, k₁)` with its unit axis squeezed away, read at `(r, q)`, is `W[r, k, k₁ + q]`.
-/
import Idealize.ShloMosaic.PureOps.Ideal.Laws
import Idealize.ShloMosaic.Lib.ValueIdx
import Idealize.ShloMosaic.Lib.Pipeline.Value

noncomputable section

namespace Idealize.ShloMosaic.GramPairs

open Idealize.ShloMosaic Idealize.ShloMosaic.ValueIdx

/-- **A batched product contracting the last axis, as a sum over that axis.** `D` is any dimension record between
    `[B, M, K]`, `[B, N, K]` and `[B, M, N]` with one contracted axis of extent `K` whose left operand index at output index
    `j` and contraction index `k` is `(j 0, j 1, k)` and whose right one is `(j 0, j 2, k)`. Then the sum over the
    contraction index of the operands' products at `(b, i, j)` is the sum over `d < K` of `x[b, i, d] · y[b, j, d]`:
    the contraction index is re-indexed by its one coordinate. -/
theorem sum_contr_lastAxis {B M N K : Nat}
    (D : DotDims ⟨3, ![B, M, K]⟩ ⟨3, ![B, N, K]⟩ ⟨3, ![B, M, N]⟩)
    (hr : D.contr.rank = 1) (hs : D.contr.size ⟨0, by omega⟩ = K)
    (hl0 : ∀ j k, (D.lhsIdx j k 0).val = (j 0).val) (hl1 : ∀ j k, (D.lhsIdx j k 1).val = (j 1).val)
    (hl2 : ∀ j k, (D.lhsIdx j k 2).val = (k ⟨0, by omega⟩).val)
    (hr0 : ∀ j k, (D.rhsIdx j k 0).val = (j 0).val) (hr1 : ∀ j k, (D.rhsIdx j k 1).val = (j 2).val)
    (hr2 : ∀ j k, (D.rhsIdx j k 2).val = (k ⟨0, by omega⟩).val)
    (x : (⟨3, ![B, M, K]⟩ : Shape).Idx → EReal) (y : (⟨3, ![B, N, K]⟩ : Shape).Idx → EReal)
    (b : Fin B) (i : Fin M) (j : Fin N) :
    ∑ k : D.contr.Idx, x (D.lhsIdx (ix3 b i j) k) * y (D.rhsIdx (ix3 b i j) k)
      = ∑ d : Fin K, x (ix3 b i d) * y (ix3 b j d) := by
  rw [← Equiv.sum_comp (contrEquiv1 D K hr hs).symm]
  refine Finset.sum_congr rfl fun d _ => ?_
  have el : D.lhsIdx (ix3 b i j) ((contrEquiv1 D K hr hs).symm d) = ix3 b i d := by
    funext a
    refine Fin.ext ?_
    match a with
    | ⟨0, _⟩ => exact hl0 _ _
    | ⟨1, _⟩ => exact hl1 _ _
    | ⟨2, _⟩ => exact (hl2 _ _).trans (contrEquiv1_symm_val D K hr hs d)
  have er : D.rhsIdx (ix3 b i j) ((contrEquiv1 D K hr hs).symm d) = ix3 b j d := by
    funext a
    refine Fin.ext ?_
    match a with
    | ⟨0, _⟩ => exact hr0 _ _
    | ⟨1, _⟩ => exact hr1 _ _
    | ⟨2, _⟩ => exact (hr2 _ _).trans (contrEquiv1_symm_val D K hr hs d)
  rw [el, er]

/-- **The tail of one row, squeezed.** The slice `[R, 1, n]` of `W : [R, M, N]` at offsets `(0, k, k₁)`, recast to
    `[R, n]`, read at `(r, q)` is `W[r, k, k₁ + q]`: the recast keeps the row-major position, which with the middle
    extent one is `r · n + q` on both sides, and the slice adds its offsets. -/
theorem rowTail_apply {α : Type} {R M N n : Nat} (k k₁ : Nat) (W : (⟨3, ![R, M, N]⟩ : Shape).Idx → α)
    (hs : (⟨3, ![R, M, N]⟩ : Shape).Slices ![0, k, k₁] ⟨3, ![R, 1, n]⟩)
    (hc : (⟨3, ![R, 1, n]⟩ : Shape).ShapeCasts ⟨2, ![R, n]⟩)
    (r : Fin R) (q : Fin n) (hk : k < M) (hq : k₁ + q.val < N) :
    shapeCast ⟨2, ![R, n]⟩ (extractStridedSlice ⟨3, ![R, 1, n]⟩ ![0, k, k₁] W hs) hc (ix2 r q)
      = W (ix3 r ⟨k, hk⟩ ⟨k₁ + q.val, hq⟩) := by
  have h1 : shapeCast ⟨2, ![R, n]⟩ (extractStridedSlice ⟨3, ![R, 1, n]⟩ ![0, k, k₁] W hs) hc (ix2 r q)
      = extractStridedSlice ⟨3, ![R, 1, n]⟩ ![0, k, k₁] W hs (ix3 r ⟨0, Nat.one_pos⟩ q) := by
    refine shapeCast_apply _ hc (ix2 r q) (ix3 r ⟨0, Nat.one_pos⟩ q) ?_
    rw [Shape.rowMajor_val_three, Shape.rowMajor_val_two]
    show ((r.val * 1 + 0) * n + q.val) = r.val * n + q.val
    rw [Nat.mul_one, Nat.add_zero]
  rw [h1]
  refine extractStridedSlice_apply _ W hs _ _ fun a => ?_
  match a with
  | ⟨0, _⟩ => show r.val = 0 + r.val; omega
  | ⟨1, _⟩ => show k = k + 0; omega
  | ⟨2, _⟩ => rfl

end Idealize.ShloMosaic.GramPairs

end
-- ==== Proof.KernelRow.lean ====
/-
  One grid point's output block, read at an index.

  The body forms the block's Gram matrix `W[r, i, j]` (512 × 64 × 64) and stores the row-major list of its strictly
  upper entries: for each row `K = 0 … 62` the run `W[r, K, K+1 … 63]` of `63 − K` entries, the 63 runs laid end to end
  along the second axis. Row `K`'s run begins at column `runStart K = 63 K − K (K − 1) / 2` (the lengths of the runs
  before it), so the stored block at `(r, runStart K + q)`, `q < 63 − K`, is `W[r, K, K + 1 + q]`.
-/
import proofs.«180183_j28930899706274_1_alg».proof.Proof.Gen.KernelIdeal.Frame
import proofs.«180183_j28930899706274_1_alg».proof.Proof.LibGramPairs

noncomputable section

namespace Cert.KernelIdeal.Hand

open Cert.KernelIdeal Cert.KernelIdeal.Gen Idealize.ShloMosaic Idealize.ShloMosaic.ValueIdx Idealize.ShloMosaic.GramPairs

variable {F : FTy → Type} [FloatOps F]

/-- The column at which row `K`'s run of strictly upper entries begins: `Σ_{K' < K} (63 − K')`. -/
def runStart (K : Nat) : Nat := 63 * K - K * (K - 1) / 2

/-- The tail of row `K` from column `K + 1`, `63 − K` entries long, fits inside a 64 × 64 matrix. -/
theorem slices_tail (K : Nat) (hK : K < 63) : S512x64x64.Slices ![0, K, K + 1] ⟨3, ![512, 1, 63 - K]⟩ :=
  ⟨rfl, fun a => match a with
    | ⟨0, _⟩ => by show 0 + 512 ≤ 512; omega
    | ⟨1, _⟩ => by show K + 1 ≤ 64; omega
    | ⟨2, _⟩ => by show K + 1 + (63 - K) ≤ 64; omega⟩

/-- Squeezing the unit axis keeps the number of entries. -/
theorem casts_tail (K : Nat) : (⟨3, ![512, 1, 63 - K]⟩ : Shape).ShapeCasts ⟨2, ![512, 63 - K]⟩ := by
  show (⟨2, ![512, 63 - K]⟩ : Shape).numel = (⟨3, ![512, 1, 63 - K]⟩ : Shape).numel
  simp [Shape.numel, Fin.prod_univ_succ]

/-- The extent along axis 1 of a rank-2 piece (zero for any other rank): what a concatenation along axis 1 sums. -/
abbrev axisExtent (s : Shape) : Nat := if h : s.rank = S512x2016.rank then s.size ((1 : Fin S512x2016.rank).cast h.symm) else 0

/-- The shapes of the 63 runs, in order: row `K`'s run is `[512, 63 − K]`. -/
abbrev tailShapes : List Shape := (List.range 63).map fun K => (⟨2, ![512, 63 - K]⟩ : Shape)

/-- The runs before the `K`-th span `runStart K` columns (decided over `K ≤ 63`; at `K = 63` it is the whole 2016). -/
theorem span_before : ∀ K : Fin 64, (((tailShapes.take K.val).map axisExtent).sum) = runStart K.val := by
  decide

/-- **A concatenation of row tails read at an index.** If 63 pieces are laid end to end along axis 1, the
    `K`-th the squeezed tail of row `K` of `W` from column `K + 1`, (so the pieces before the `K`-th span `runStart K`
    columns), then their concatenation at `(r, runStart k + q)` with `q < 63 − k` is `W[r, k, k + 1 + q]`: the column falls in piece
    `k`'s span at local position `q`. -/
theorem read_of_tails (W : FVec F S512x64x64 .f32)
    (xs : List ((s : Shape) × (s.Idx → F .f32))) (h : Shape.Concatenates (xs.map (·.1)) S512x2016 1)
    (hlen : xs.length = 63)
    (hget : ∀ (K : Nat) (hK : K < 63), xs[K]'(by rw [hlen]; exact hK) =
      ⟨⟨2, ![512, 63 - K]⟩, shapeCast ⟨2, ![512, 63 - K]⟩
        (extractStridedSlice ⟨3, ![512, 1, 63 - K]⟩ ![0, K, K + 1] W (slices_tail K hK)) (casts_tail K)⟩)
    (hshapes : xs.map (·.1) = tailShapes)
    (k : Fin 63) (r : Fin 512) (q : Nat) (hq : q < 63 - k.val) (hp : runStart k.val + q < 2016) :
    concatenate S512x2016 1 xs h (ix2 r ⟨runStart k.val + q, hp⟩)
      = W (ix3 r ⟨k.val, by omega⟩ ⟨k.val + 1 + q, by omega⟩) := by
  have hpre : (((xs.take k.val).map (·.1)).map axisExtent).sum = runStart k.val := by
    rw [List.map_take, hshapes]
    exact span_before ⟨k.val, by omega⟩
  refine (concatenate_apply_piece (1 : Fin S512x2016.rank) xs h (ix2 r ⟨runStart k.val + q, hp⟩) k.val (by rw [hlen]; exact k.isLt)
    ⟨2, ![512, 63 - k.val]⟩ _ (hget k.val k.isLt) rfl (runStart k.val) hpre
    (ix2 r ⟨q, hq⟩) ?_ ?_).trans ?_
  · intro b hb
    match b with
    | ⟨0, _⟩ => rfl
    | ⟨1, _⟩ => exact absurd rfl hb
  · rfl
  · exact rowTail_apply k.val (k.val + 1) W (slices_tail k.val k.isLt) (casts_tail k.val) r ⟨q, hq⟩ (by omega) (by omega)

theorem hz2 : (![0, 0] : Fin 2 → Nat) = fun _ => 0 := funext fun a => by fin_cases a <;> rfl
theorem hz3 : (![0, 0, 0] : Fin 3 → Nat) = fun _ => 0 := funext fun a => by fin_cases a <;> rfl

set_option maxRecDepth 65536 in
set_option maxHeartbeats 2000000 in
/-- **The body's output block at an index.** What the body leaves in the output window's buffer, as a function of the
    loaded input block `x0`, at `(r, runStart k + q)` with `q < 63 − k` is the Gram entry `(k0_pay2 x0)[r, k, k + 1 + q]`:
    the one store writes the whole block, its payload the concatenation of the 63 row tails. -/
theorem out_row (x0 : Vec F S512x64x32 .f32) (k : Fin 63) (r : Fin 512) (q : Nat) (hq : q < 63 - k.val)
    (hp : runStart k.val + q < 2016) :
    out0_1 x0 (ix2 r ⟨runStart k.val + q, hp⟩)
      = k0_pay2 x0 (ix3 r ⟨k.val, by omega⟩ ⟨k.val + 1 + q, by omega⟩) := by
  unfold out0_1
  rw [View.canon_unit_zero hz2]
  simp only [View.ld_unit_zero (S := S512x64x32) hz3]
  show concatenate S512x2016 1 _ ?h (ix2 r ⟨runStart k.val + q, hp⟩) = _
  case h => exact Facts₀.concatenates_S512x63_S512x62_S512x61_S512x60_S512x59_S512x58_S512x57_S512x56_S512x55_S512x54_S512x53_S512x52_S512x51_S512x50_S512x49_S512x48_S512x47_S512x46_S512x45_S512x44_S512x43_S512x42_S512x41_S512x40_S512x39_S512x38_S512x37_S512x36_S512x35_S512x34_S512x33_S512x32_S512x31_S512x30_S512x29_S512x28_S512x27_S512x26_S512x25_S512x24_S512x23_S512x22_S512x21_S512x20_S512x19_S512x18_S512x17_S512x16_S512x15_S512x14_S512x13_S512x12_S512x11_S512x10_S512x9_S512x8_S512x7_S512x6_S512x5_S512x4_S512x3_S512x2_S512x1_S512x2016_d1
  refine read_of_tails (k0_pay2 x0) _ _ ?hlen ?hget ?hshapes k r q hq hp
  case hlen => exact rfl
  case hshapes => exact rfl
  case hget =>
    intro K hK
    interval_cases K <;> rfl

end Cert.KernelIdeal.Hand

end
-- ==== Proof.Pairs.lean ====
/-
  The table of strictly upper pairs, and the value both programs compute.

  The reference's two literal tables list, for each position `p < 2016`, the row `i` and the column `j` of the `p`-th
  pair `i < j < 64` in row-major order. The kernel lays the same entries out by runs: row `K`'s entries `K+1 … 63` occupy the
  columns from `runStart K`. That the two orders agree is a finite fact about the tables, decided position by position:
  position `p` lies in the run of its row word, and its column word is that row plus one plus its place in the run.

  The common value at `(b, p)` is then `Σ_d x[b, i, d] · x[b, j, d]` with `(i, j)` the `p`-th pair.
-/
import proofs.«180183_j28930899706274_1_alg».proof.Proof.KernelRow
import proofs.«180183_j28930899706274_1_alg».proof.ReferenceIdeal

noncomputable section

namespace Cert.Pairs

open Cert.ReferenceIdeal (lit0t lit1t)
open Cert.KernelIdeal.Hand (runStart)
open Idealize.ShloMosaic Idealize.ShloMosaic.ValueIdx

/-- The row word at position `p`, read as a signed number. -/
def rowNat (p : Nat) : Nat := (lit0t p).toInt.toNat

/-- The column word at position `p`, read as a signed number. -/
def colNat (p : Nat) : Nat := (lit1t p).toInt.toNat

set_option maxRecDepth 100000 in
/-- **The tables list the strictly upper pairs run by run**: position `p` has a row `i < 63`, lies in that row's run
    (`runStart i ≤ p`, at a place `p − runStart i < 63 − i`), and its column is `i + 1` plus that place. Evaluated over the
    2016 positions. -/
theorem pair_fact : ∀ p : Fin 2016, rowNat p.val < 63 ∧ runStart (rowNat p.val) ≤ p.val
    ∧ p.val - runStart (rowNat p.val) < 63 - rowNat p.val
    ∧ colNat p.val = rowNat p.val + 1 + (p.val - runStart (rowNat p.val)) := by
  decide +kernel

/-- The row of the `p`-th pair. -/
def rowOf (p : Fin 2016) : Fin 64 := ⟨rowNat p.val, by have := pair_fact p; omega⟩

/-- The column of the `p`-th pair. -/
def colOf (p : Fin 2016) : Fin 64 := ⟨colNat p.val, by have := pair_fact p; omega⟩

/-- The interaction of the `p`-th pair of features of batch element `b`: the inner product of their embeddings. -/
def pairGram {B : Nat} (x : (⟨3, ![B, 64, 32]⟩ : Shape).Idx → EReal) (b : Fin B) (p : Fin 2016) : EReal :=
  ∑ d : Fin 32, x (ix3 b (rowOf p) d) * x (ix3 b (colOf p) d)

/-- **The result array as one function of the argument**: at `(b, p)` the interaction of the `p`-th pair in batch
    element `b`. -/
def G (x : (⟨3, ![8192, 64, 32]⟩ : Shape).Idx → EReal) : (⟨2, ![8192, 2016]⟩ : Shape).Idx → EReal :=
  fun y => pairGram x ⟨(y 0).val, idx2_lt0 y⟩ ⟨(y 1).val, idx2_lt1 y⟩

theorem G_apply (x : (⟨3, ![8192, 64, 32]⟩ : Shape).Idx → EReal) (b : Fin 8192) (p : Fin 2016) :
    G x (ix2 b p) = pairGram x b p := rfl

end Cert.Pairs

end
-- ==== Proof.KernelValue.lean ====
/-
  The kernel's result array is `G` of its argument, at the ideal values.

  Grid point `t` of 16 stages rows `512 t … 512 t + 511` of the argument and writes back the same rows of the result. Its
  body's block at `(r, p)` is the Gram entry of the staged block at the `p`-th pair (the position lies in its row's run, at
  the place its column word says), the Gram entry is the sum over the 32 embedding coordinates, and the staged block's
  entries are the argument's at row `512 t + r`. The 16 blocks tile the result, so the whole array ends at `G`.
-/
import proofs.«180183_j28930899706274_1_alg».proof.Proof.Gen.KernelIdeal.Value
import proofs.«180183_j28930899706274_1_alg».proof.Proof.Pairs

noncomputable section

namespace Cert.KernelIdeal.Hand

open Cert.KernelIdeal Cert.KernelIdeal.Gen Idealize.ShloMosaic Idealize.ShloMosaic.TcCoe Idealize.SL.Sem
open Idealize.ShloMosaic.ValueIdx Idealize.ShloMosaic.GramPairs Cert.Pairs
open Idealize.ShloMosaic.Pipeline (Dat)

variable (m : (ℓ : Loc nD τ sig) → Buf (Elt Ideal) ℓ) (ρ : Dev nD → PrngReg)

/-- The block's Gram matrix at `(r, i, j)`: the product into the zero accumulator is `Σ_d x0[r, i, d] · x0[r, j, d]`. -/
theorem gram_block (x0 : (⟨3, ![512, 64, 32]⟩ : Shape).Idx → EReal) (r : Fin 512) (i j : Fin 64) :
    k0_pay2 (F := Ideal) x0 (ix3 r i j) = ∑ d : Fin 32, x0 (ix3 r i d) * x0 (ix3 r j d) :=
  (Ideal.matmul_constant_zero_apply (φ₁ := .f32) (φ₂ := .f32) dot_S512x64x32_S512x64x32_S512x64x64_2_2_1_1_0_0 none x0 x0 (ix3 r i j)).trans
    (sum_contr_lastAxis dot_S512x64x32_S512x64x32_S512x64x64_2_2_1_1_0_0 rfl rfl
      (fun _ _ => rfl) (fun _ _ => rfl) (fun _ _ => rfl) (fun _ _ => rfl) (fun _ _ => rfl) (fun _ _ => rfl) x0 x0 r i j)

/-- **The body's block at `(r, p)`** is the interaction of the `p`-th pair within the staged block: `p` lies in the run
    of its row `i`, at the place `p − runStart i`, and its column is `i + 1` plus that place. -/
theorem out_pair (x0 : (⟨3, ![512, 64, 32]⟩ : Shape).Idx → EReal) (r : Fin 512) (p : Fin 2016) :
    out0_1 (F := Ideal) x0 (ix2 r p) = ∑ d : Fin 32, x0 (ix3 r (rowOf p) d) * x0 (ix3 r (colOf p) d) := by
  obtain ⟨h63, hle, hlt, hcol⟩ := pair_fact p
  have hp : runStart (rowNat p.val) + (p.val - runStart (rowNat p.val)) < 2016 := by have := p.isLt; omega
  have e0 : ix2 r p = ix2 r (⟨runStart (rowNat p.val) + (p.val - runStart (rowNat p.val)), hp⟩ : Fin 2016) :=
    congrArg (ix2 r) (Fin.ext (by show p.val = runStart (rowNat p.val) + (p.val - runStart (rowNat p.val)); omega))
  refine (congrArg (out0_1 (F := Ideal) x0) e0).trans
    ((out_row (F := Ideal) x0 ⟨rowNat p.val, h63⟩ r (p.val - runStart (rowNat p.val)) hlt hp).trans ((gram_block x0 r _ _).trans ?_))
  refine Finset.sum_congr rfl fun d _ => ?_
  have ec : (⟨rowNat p.val + 1 + (p.val - runStart (rowNat p.val)), by omega⟩ : Fin 64) = colOf p := Fin.ext hcol.symm
  exact congrArg (fun j : Fin 64 => x0 (ix3 r (rowOf p) d) * x0 (ix3 r j d)) ec

/-- The printed index maps over the 16 points: input block `t` is rows `512 t …` of the argument, output block `t` rows
    `512 t …` of the result; the other axes are whole. -/
theorem idx_facts : ∀ t : Fin cfg0.N, win0_0.index t (0 : Fin 3) = t.val ∧ win0_0.index t (1 : Fin 3) = 0
    ∧ win0_0.index t (2 : Fin 3) = 0 ∧ win0_1.index t (0 : Fin 2) = t.val ∧ win0_1.index t (1 : Fin 2) = 0 :=
  (by decide +kernel : ∀ t : Fin grid0.N, win0_0.index t (0 : Fin 3) = t.val ∧ win0_0.index t (1 : Fin 3) = 0
    ∧ win0_0.index t (2 : Fin 3) = 0 ∧ win0_1.index t (0 : Fin 2) = t.val ∧ win0_1.index t (1 : Fin 2) = 0)

/-- An entry of the staged input block is the argument's at row `512 t + r`. -/
theorem iblk_apply (c : Dev nD) (t : Fin cfg0.N) (r : Fin 512) (i : Fin 64) (d : Fin 32) (b : Fin 8192)
    (hb : b.val = t.val * 512 + r.val) :
    iblk m c 0 t (ix3 r i d) = V m c main_arg0 (ix3 b i d) := by
  show V m c main_arg0 (((cfg0.win 0).blk t).view.emb (ix3 r i d)) = _
  obtain ⟨e0, e1, e2, -, -⟩ := idx_facts t
  refine congrArg (V m c main_arg0) (funext fun a => Fin.ext ?_)
  match a with
  | ⟨0, _⟩ => show win0_0.index t (0 : Fin 3) * 512 + 1 * r.val = b.val; omega
  | ⟨1, _⟩ => show win0_0.index t (1 : Fin 3) * 64 + 1 * i.val = i.val; omega
  | ⟨2, _⟩ => show win0_0.index t (2 : Fin 3) * 32 + 1 * d.val = d.val; omega

/-- **What point `t` writes back** is block `t` of `G` of the argument. -/
theorem flushed_eq (c : Dev nD) (t : Fin cfg0.N) :
    (dats m 0 c).flushed 1 t = ((cfg0.win 1).blk t).view.read (Elt Ideal) (G (V m c main_arg0)) := by
  rw [Value.flushed1]
  funext j
  show out0_1 (iblk m c 0 t) j = G (V m c main_arg0) (((cfg0.win 1).blk t).view.emb j)
  obtain ⟨r, p, rfl⟩ : ∃ (r : Fin 512) (p : Fin 2016), j = ix2 r p := ⟨j 0, j 1, eq_ix2 j⟩
  obtain ⟨-, -, -, e3, e4⟩ := idx_facts t
  have hN : cfg0.N = 16 := N_0
  have hb : t.val * 512 + r.val < 8192 := by have := t.isLt; have := r.isLt; omega
  have eemb : ((cfg0.win 1).blk t).view.emb (ix2 r p) = ix2 (⟨t.val * 512 + r.val, hb⟩ : Fin 8192) p :=
    funext fun a => Fin.ext (match a with
      | ⟨0, _⟩ => (show win0_1.index t (0 : Fin 2) * 512 + 1 * r.val = t.val * 512 + r.val by omega)
      | ⟨1, _⟩ => (show win0_1.index t (1 : Fin 2) * 2016 + 1 * p.val = p.val by omega))
  rw [eemb, G_apply]
  refine (out_pair (iblk m c 0 t) r p).trans ?_
  unfold pairGram
  refine Finset.sum_congr rfl fun d _ => ?_
  exact congrArg₂ (fun u v : EReal => u * v) (iblk_apply m c t r (rowOf p) d ⟨t.val * 512 + r.val, hb⟩ rfl)
    (iblk_apply m c t r (colOf p) d ⟨t.val * 512 + r.val, hb⟩ rfl)

/-- Every index of the result lies in the block of the point that owns its row: point `row / 512`. -/
theorem covered (i : S8192x2016.Idx) :
    ∃ t : Fin cfg0.N, (cfg0.win 1).flush t = true ∧ i ∈ ((cfg0.win 1).blk t).view.set := by
  have hN : cfg0.N = 16 := N_0
  have hi0 : (i 0).val < 8192 := (i 0).isLt
  have hi1 : (i 1).val < 2016 := (i 1).isLt
  have ht : (i 0).val / 512 < cfg0.N := by omega
  obtain ⟨-, -, -, e3, e4⟩ := idx_facts ⟨(i 0).val / 512, ht⟩
  refine ⟨⟨(i 0).val / 512, ht⟩, flush0_1 _, ?_⟩
  show i ∈ ((View.whole main_v0).slice (win0_1.rect ⟨(i 0).val / 512, ht⟩)).set
  rw [View.set_slice_whole, Rect.mem_set_unit]
  intro a
  match a with
  | ⟨0, _⟩ =>
    show win0_1.index ⟨(i 0).val / 512, ht⟩ (0 : Fin 2) * 512 ≤ (i 0).val
      ∧ (i 0).val < win0_1.index ⟨(i 0).val / 512, ht⟩ (0 : Fin 2) * 512 + 512
    have e3' : win0_1.index ⟨(i 0).val / 512, ht⟩ (0 : Fin 2) = (i 0).val / 512 := e3
    omega
  | ⟨1, _⟩ =>
    show win0_1.index ⟨(i 0).val / 512, ht⟩ (1 : Fin 2) * 2016 ≤ (i 1).val
      ∧ (i 1).val < win0_1.index ⟨(i 0).val / 512, ht⟩ (1 : Fin 2) * 2016 + 2016
    omega

/-- **The result array after the run is `G` of the argument.** -/
theorem final (c : Dev nD) : (dats m 0 c).arrAt 1 cfg0.N = G (m ((c : Thread nD τ).loc main_arg0)) :=
  (dats m 0 c).arrAt_eq_of_cover 1 (G (V m c main_arg0)) (fun t _ => flushed_eq m c t) covered

/-- The kernel's run with the result named: every weakly fair execution terminates with the result buffer at `G` of
    the argument and the argument unchanged. -/
theorem run : θ_run defs (onTc (τ := τ) (main (F := Ideal))) ⟨m, fun _ => 0, ρ⟩ fun r => ∀ c : Dev nD,
      r.2.mem ((c : Thread nD τ).loc main_v0) = G (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩) (Value.run_blocks m ρ)

end Cert.KernelIdeal.Hand

end
-- ==== Proof.RefTerm.lean ====
/-
  The reference program's result as ONE term of its argument, named so that its run and its value can be
  stated over the same text.

  The reference forms the batched Gram matrix `D[b,i,j] = Σ_d x[b,i,d] · x[b,j,d]` and then keeps, for each of the
  2016 positions `p`, the entry `D[b, rowWords p, colWords p]`: the two literal tables list the strictly upper
  pairs `(i, j)`, `i < j < 64`, row by row. Before the gather each table goes through jnp's wrap of negative
  indices (`select mask (c + 64) c` with the mask everywhere false, so the table itself), is made a column, and the
  two columns are laid side by side as the [2016, 2] array of start indices.
-/
import proofs.«180183_j28930899706274_1_alg».proof.Proof.Gen.ReferenceIdeal

noncomputable section

namespace Cert.ReferenceIdeal.Hand

open Cert.ReferenceIdeal Cert.ReferenceIdeal.Gen Idealize.ShloMosaic Idealize.SL.Sem

variable {F : FTy → Type} [FloatOps F]

/-- The row table as the program holds it: word `p` is the row `i` of the `p`-th strictly upper pair. -/
def rowWords : IVec S2016 32 := fun i => lit0 (S2016.rowMajor i)

/-- The column table: word `p` is the column `j` of the `p`-th strictly upper pair. -/
def colWords : IVec S2016 32 := fun i => lit1 (S2016.rowMajor i)

/-- jnp's wrap of negative indices, as printed: `c + 64` where the (all-false) mask is set, else `c`. -/
def wrapped (c : IVec S2016 32) : IVec S2016 32 :=
  select (constantI S2016 1 0#1) (addi c (broadcastInDim S2016 ![] bcast_S_S2016 (constantI S_ 32 64#32))) c

/-- The [2016, 2] array of start indices: column 0 the wrapped rows, column 1 the wrapped columns. -/
def pairTable : IVec S2016x2 32 :=
  concatenate S2016x2 1
    [⟨S2016x1, broadcastInDim S2016x1 ![0] bcast_S2016_S2016x1_0 (wrapped rowWords)⟩,
     ⟨S2016x1, broadcastInDim S2016x1 ![0] bcast_S2016_S2016x1_0 (wrapped colWords)⟩]
    concatenates_S2016x1_S2016x1_S2016x2_d1

/-- The reference's result: the gather, at the pair table, of the batched Gram matrix of the argument. -/
def result (x : FVec F S8192x64x32 .f32) : FVec F S8192x2016 .f32 :=
  Host.gather gather_S8192x64x64_S2016x2_S8192x2016_0_12_n_n_12_1_819211
    (Host.dotGeneral dot_S8192x64x32_S8192x64x32_S8192x64x64_2_2_1_1_0_0 none x x) pairTable

end Cert.ReferenceIdeal.Hand

end
-- ==== Proof.RefRun.lean ====
/-
  The reference program's run, read back: its @main is a straight line of 17 host operations, so every weakly
  fair execution terminates with each operation's result buffer holding that operation applied to its operands'
  contents; composing them from the argument gives the last buffer as `Hand.result` of the argument — the gather,
  at the table of strictly upper pairs, of the argument's batched Gram matrix — and the argument unchanged.
-/
import proofs.«180183_j28930899706274_1_alg».proof.Proof.RefTerm
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- @main's 17 operations, in order. -/
abbrev ops : List (HloOp τ sig (Elt F)) :=
  [ nullary main_c (fun i => lit0 (S2016.rowMajor i)),
    nullary main_c_0 (constantI S2016 1 0#1),
    nullary main_c_1 (fun i => lit1 (S2016.rowMajor i)),
    nullary main_c_2 (constantI S2016 1 0#1),
    binary main_arg0 main_arg0 main_v0 ((fun l r => Host.dotGeneral dot_S8192x64x32_S8192x64x32_S8192x64x64_2_2_1_1_0_0 none l r) : (⟨S8192x64x32, .f32⟩ : BufTy).Contents (Elt F) → (⟨S8192x64x32, .f32⟩ : BufTy).Contents (Elt F) → (⟨S8192x64x64, .f32⟩ : BufTy).Contents (Elt F)),
    nullary main_c_3 (constantI S_ 32 64#32),
    unary main_c_3 main_v1 (broadcastInDim S2016 ![] bcast_S_S2016 : (⟨S_, .i32⟩ : BufTy).Contents (Elt F) → (⟨S2016, .i32⟩ : BufTy).Contents (Elt F)),
    binary main_c main_v1 main_v2 (addi : (⟨S2016, .i32⟩ : BufTy).Contents (Elt F) → (⟨S2016, .i32⟩ : BufTy).Contents (Elt F) → (⟨S2016, .i32⟩ : BufTy).Contents (Elt F)),
    ternary main_c_0 main_v2 main_c main_v3 (select : (⟨S2016, .i1⟩ : BufTy).Contents (Elt F) → (⟨S2016, .i32⟩ : BufTy).Contents (Elt F) → (⟨S2016, .i32⟩ : BufTy).Contents (Elt F) → (⟨S2016, .i32⟩ : BufTy).Contents (Elt F)),
    nullary main_c_4 (constantI S_ 32 64#32),
    unary main_c_4 main_v4 (broadcastInDim S2016 ![] bcast_S_S2016 : (⟨S_, .i32⟩ : BufTy).Contents (Elt F) → (⟨S2016, .i32⟩ : BufTy).Contents (Elt F)),
    binary main_c_1 main_v4 main_v5 (addi : (⟨S2016, .i32⟩ : BufTy).Contents (Elt F) → (⟨S2016, .i32⟩ : BufTy).Contents (Elt F) → (⟨S2016, .i32⟩ : BufTy).Contents (Elt F)),
    ternary main_c_2 main_v5 main_c_1 main_v6 (select : (⟨S2016, .i1⟩ : BufTy).Contents (Elt F) → (⟨S2016, .i32⟩ : BufTy).Contents (Elt F) → (⟨S2016, .i32⟩ : BufTy).Contents (Elt F) → (⟨S2016, .i32⟩ : BufTy).Contents (Elt F)),
    unary main_v3 main_v7 (broadcastInDim S2016x1 ![0] bcast_S2016_S2016x1_0 : (⟨S2016, .i32⟩ : BufTy).Contents (Elt F) → (⟨S2016x1, .i32⟩ : BufTy).Contents (Elt F)),
    unary main_v6 main_v8 (broadcastInDim S2016x1 ![0] bcast_S2016_S2016x1_0 : (⟨S2016, .i32⟩ : BufTy).Contents (Elt F) → (⟨S2016x1, .i32⟩ : BufTy).Contents (Elt F)),
    binary main_v7 main_v8 main_v9 ((fun a b => concatenate S2016x2 1 [⟨S2016x1, a⟩, ⟨S2016x1, b⟩] concatenates_S2016x1_S2016x1_S2016x2_d1) : (⟨S2016x1, .i32⟩ : BufTy).Contents (Elt F) → (⟨S2016x1, .i32⟩ : BufTy).Contents (Elt F) → (⟨S2016x2, .i32⟩ : BufTy).Contents (Elt F)),
    binary main_v0 main_v9 main_v10 ((fun x i => Host.gather gather_S8192x64x64_S2016x2_S8192x2016_0_12_n_n_12_1_819211 x i) : (⟨S8192x64x64, .f32⟩ : BufTy).Contents (Elt F) → (⟨S2016x2, .i32⟩ : BufTy).Contents (Elt F) → (⟨S8192x2016, .f32⟩ : BufTy).Contents (Elt F)) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., nullary_bufs_sub .., nullary_bufs_sub .., nullary_bufs_sub .., binary_bufs_sub .., nullary_bufs_sub .., unary_bufs_sub .., binary_bufs_sub .., ternary_bufs_sub .., nullary_bufs_sub .., unary_bufs_sub .., binary_bufs_sub .., ternary_bufs_sub .., unary_bufs_sub .., unary_bufs_sub .., binary_bufs_sub .., binary_bufs_sub ..⟩

/-- From any memory with zero counters every weakly fair execution of the reference terminates, the result buffer
    holding `result` of the argument as launched and the argument unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v10) = result (F := F) (m ((c.tc : Thread nD τ).loc main_arg0))
      ∧ r.2.mem ((c.tc : Thread nD τ).loc main_arg0) = m ((c.tc : Thread nD τ).loc main_arg0) :=
  (θ_run defs _ _).mono (fun _ h c => ⟨(h c main_v10).trans (by after_results; rfl),
      (h c main_arg0).trans (by after_results)⟩)
    (run_seq scopedRefs_eq scopedSems_eq defs main (fun _ => ops) main_eq (fun _ => ops_sub) m ρ)

end Cert.ReferenceIdeal.Hand

end
-- ==== Proof.RefIndex.lean ====
/-
  The reference's gather, read at an index.

  The start-index array has in row `p` the pair (row word `p`, column word `p`): the wrap of negative indices selects on a
  mask that is false everywhere, so it returns each table unchanged; each table is made a [2016, 1] column and the two
  columns are set side by side. The gather collapses operand axes 1 and 2, starts them at the pair, and carries axis 0
  whole, so its result at `(b, p)` is the operand at `(b, i, j)` where `i`, `j` are the pair's words read as signed numbers
  (clamped into `[0, 63]`, which changes nothing for words already in that range).
-/
import proofs.«180183_j28930899706274_1_alg».proof.Proof.RefTerm
import Idealize.ShloMosaic.Lib.Pipeline.Value
import Idealize.ShloMosaic.Lib.ValueIdx

noncomputable section

namespace Cert.ReferenceIdeal.Hand

open Cert.ReferenceIdeal Cert.ReferenceIdeal.Gen Idealize.ShloMosaic Idealize.ShloMosaic.ValueIdx

/-- The wrap selects on an all-false mask: it is the identity. -/
theorem wrapped_eq (c : IVec S2016 32) : wrapped c = c := by
  funext i
  simp [wrapped, select, Scalar.select, constantI]

/-- Word `p` of the row table, through the rank-1 index. -/
theorem rowWords_apply (p : Fin 2016) : rowWords (ix1 p) = lit0 p := by
  unfold rowWords
  exact congrArg lit0 (Fin.ext (Shape.rowMajor_val_one _))

/-- Word `p` of the column table, through the rank-1 index. -/
theorem colWords_apply (p : Fin 2016) : colWords (ix1 p) = lit1 p := by
  unfold colWords
  exact congrArg lit1 (Fin.ext (Shape.rowMajor_val_one _))

/-- A table made a column, read at row `p`. -/
theorem column_apply (v : IVec S2016 32) (p : Fin 2016) :
    broadcastInDim S2016x1 ![0] bcast_S2016_S2016x1_0 v (ix2 p (0 : Fin 1)) = v (ix1 p) := by
  refine broadcastInDim_apply ![0] bcast_S2016_S2016x1_0 v (ix2 p (0 : Fin 1)) (ix1 p) fun a => ?_
  match a with
  | ⟨0, _⟩ => rfl

/-- Column 0 of the start-index array is the row table. -/
theorem pairTable_row (p : Fin 2016) : pairTable (ix2 p (0 : Fin 2)) = lit0 p := by
  unfold pairTable
  rw [concatenate_pair_apply_left (1 : Fin S2016x2.rank) _ _ concatenates_S2016x1_S2016x1_S2016x2_d1
    (ix2 p (0 : Fin 2)) rfl (ix2 p (0 : Fin 1)) (fun b => by match b with | ⟨0, _⟩ => rfl | ⟨1, _⟩ => rfl)]
  rw [column_apply, wrapped_eq, rowWords_apply]

/-- Column 1 of the start-index array is the column table. -/
theorem pairTable_col (p : Fin 2016) : pairTable (ix2 p (1 : Fin 2)) = lit1 p := by
  unfold pairTable
  rw [concatenate_pair_apply_right (1 : Fin S2016x2.rank) _ _ concatenates_S2016x1_S2016x1_S2016x2_d1
    (ix2 p (1 : Fin 2)) rfl rfl (ix2 p (0 : Fin 1))
    (fun b hb => by match b with | ⟨0, _⟩ => rfl | ⟨1, _⟩ => exact absurd rfl hb) rfl]
  rw [column_apply, wrapped_eq, colWords_apply]

/-- The gather's dimension numbers, by a short name. -/
abbrev pairGather : GatherDims S8192x64x64 S2016x2 S8192x2016 :=
  gather_S8192x64x64_S2016x2_S8192x2016_0_12_n_n_12_1_819211

/-- The start-index position that result index `(b, p)` reads for component `c` of its pair is `(p, c)`. -/
theorem pairGather_siIdx (b : Fin 8192) (p : Fin 2016) (c : Fin 2) :
    pairGather.siIdx (ix2 b p) ⟨c.val, c.isLt⟩ = ix2 p c := by
  funext a
  refine Fin.ext ?_
  match a, c with
  | ⟨0, _⟩, _ => rfl
  | ⟨1, _⟩, _ => rfl

/-- **The gather at `(b, p)`** is the operand at `(b, i, j)`, `i` and `j` the two start words of row `p` read as signed
    numbers, when both lie below 64 (so that the clamp into `[0, 63]` leaves them): axis 0 is carried whole (start 0,
    offset `b`), axes 1 and 2 are collapsed (offset 0) and start at the pair; there is no batching axis. -/
theorem gather_pair {α : Type} (X : S8192x64x64.Idx → α) (idx : IVec S2016x2 32) (b : Fin 8192) (p : Fin 2016)
    (i j : Fin 64) (hi : (idx (ix2 p (0 : Fin 2))).toInt.toNat = i.val)
    (hj : (idx (ix2 p (1 : Fin 2))).toInt.toNat = j.val) :
    Host.gather pairGather X idx (ix2 b p) = X (ix3 b i j) := by
  unfold Host.gather
  refine congrArg X (funext fun a => Fin.ext ?_)
  show pairGather.start (ix2 b p) idx a + pairGather.batchCoord (ix2 b p) a + pairGather.offCoord (ix2 b p) a
    = (ix3 b i j a).val
  rw [GatherDims.batchCoord_eq_zero _ _ _ List.not_mem_nil, Nat.add_zero]
  match a with
  | ⟨0, _⟩ =>
    have h1 : pairGather.start (ix2 b p) idx ⟨0, by decide⟩ = 0 := by
      unfold GatherDims.start
      rw [dif_neg (by decide)]
    have h2 : pairGather.offCoord (ix2 b p) ⟨0, by decide⟩ = b.val := by
      unfold GatherDims.offCoord
      rw [dif_pos (by decide)]
      rfl
    rw [h1, h2, Nat.zero_add]
  | ⟨1, _⟩ =>
    have h2 : pairGather.offCoord (ix2 b p) ⟨1, by decide⟩ = 0 :=
      GatherDims.offCoord_eq_zero _ _ _ (by decide)
    have h1 : pairGather.start (ix2 b p) idx ⟨1, by decide⟩ = min (idx (ix2 p (0 : Fin 2))).toInt.toNat 63 := by
      unfold GatherDims.start
      rw [dif_pos (by decide)]
      have e := pairGather_siIdx b p 0
      exact congrArg (fun z : S2016x2.Idx => min (idx z).toInt.toNat 63) e
    rw [h1, h2, Nat.add_zero, hi]
    show min i.val 63 = i.val
    omega
  | ⟨2, _⟩ =>
    have h2 : pairGather.offCoord (ix2 b p) ⟨2, by decide⟩ = 0 :=
      GatherDims.offCoord_eq_zero _ _ _ (by decide)
    have h1 : pairGather.start (ix2 b p) idx ⟨2, by decide⟩ = min (idx (ix2 p (1 : Fin 2))).toInt.toNat 63 := by
      unfold GatherDims.start
      rw [dif_pos (by decide)]
      have e := pairGather_siIdx b p 1
      exact congrArg (fun z : S2016x2.Idx => min (idx z).toInt.toNat 63) e
    rw [h1, h2, Nat.add_zero, hj]
    show min j.val 63 = j.val
    omega

end Cert.ReferenceIdeal.Hand

end
-- ==== Proof.RefValue.lean ====
/-
  The reference's result is `G` of its argument, at the ideal values.

  At `(b, p)` the gather reads the Gram matrix at `(b, i, j)`, `(i, j)` the `p`-th pair of the two tables (both below 64, so
  the gather's clamp is idle), and the host's batched product there is the sum over the 32 embedding coordinates.
-/
import proofs.«180183_j28930899706274_1_alg».proof.Proof.RefIndex
import proofs.«180183_j28930899706274_1_alg».proof.Proof.Pairs

noncomputable section

namespace Cert.ReferenceIdeal.Hand

open Cert.ReferenceIdeal Cert.ReferenceIdeal.Gen Idealize.ShloMosaic Idealize.ShloMosaic.ValueIdx
open Idealize.ShloMosaic.GramPairs Cert.Pairs

/-- The host's batched product of the argument with itself, at `(b, i, j)`: `Σ_d x[b, i, d] · x[b, j, d]`. -/
theorem gram_whole (x : (⟨3, ![8192, 64, 32]⟩ : Shape).Idx → EReal) (b : Fin 8192) (i j : Fin 64) :
    Host.dotGeneral (F := Ideal) (φ₁ := .f32) (φ₂ := .f32) dot_S8192x64x32_S8192x64x32_S8192x64x64_2_2_1_1_0_0 none x x (ix3 b i j)
      = ∑ d : Fin 32, x (ix3 b i d) * x (ix3 b j d) :=
  (Ideal.dotGeneral_apply (φ₁ := .f32) (φ₂ := .f32) dot_S8192x64x32_S8192x64x32_S8192x64x64_2_2_1_1_0_0 none .single x x (ix3 b i j)).trans
    (sum_contr_lastAxis dot_S8192x64x32_S8192x64x32_S8192x64x64_2_2_1_1_0_0 rfl rfl
      (fun _ _ => rfl) (fun _ _ => rfl) (fun _ _ => rfl) (fun _ _ => rfl) (fun _ _ => rfl) (fun _ _ => rfl) x x b i j)

/-- **The reference's result is `G`.** -/
theorem result_eq (x : (⟨3, ![8192, 64, 32]⟩ : Shape).Idx → EReal) : result (F := Ideal) x = G x := by
  funext y
  obtain ⟨b, p, rfl⟩ : ∃ (b : Fin 8192) (p : Fin 2016), y = ix2 b p := ⟨y 0, y 1, eq_ix2 y⟩
  rw [G_apply]
  unfold result
  refine (gather_pair _ pairTable b p (rowOf p) (colOf p) ?_ ?_).trans (gram_whole x b (rowOf p) (colOf p))
  · rw [pairTable_row]; rfl
  · rw [pairTable_col]; rfl

end Cert.ReferenceIdeal.Hand

end
-- ==== Proof.lean ====
/- The proof of `Cert.Claim`: the kernel and the reference compute the same pairwise feature interactions.

   For an input `x : [8192, 64, 32]` (batch, feature, embedding coordinate) both programs return, for every batch element
   `b` and every pair of distinct features `i < j` — the 2016 pairs listed row by row — the inner product
   `Σ_d x[b, i, d] · x[b, j, d]` of the two features' embeddings.

   * The reference forms the whole batched Gram matrix and gathers the 2016 entries through two literal index tables.
   * The kernel works on 16 blocks of 512 batch elements: it forms the block's Gram matrix with one batched product and lays
     the strictly upper part of each matrix out by concatenating, for each row `i`, the run of columns `i+1 … 63`.

   At the ideal values a product into a zero accumulator and the host's `dot_general` are the same finite sum, and no
   law beyond reindexing that sum is used, so the precondition (finite inputs) is never opened. What has to be shown is
   that the two layouts agree: position `p` of the concatenation lies in the run of row `rowWord p` at the place that makes
   its column `colWord p`. This is a finite fact about the tables, checked position by position (Proof/Pairs.lean).

   The modules: Proof/LibGramPairs.lean (a batched product as a sum; a row's tail read at an index), Proof/KernelRow.lean
   (the body's block at an index), Proof/Pairs.lean (the pair table and the common value `G`), Proof/KernelValue.lean (the
   kernel's result array is `G`), Proof/RefTerm.lean, Proof/RefRun.lean, Proof/RefIndex.lean, Proof/RefValue.lean (the reference's
   run, and its result is `G`). The frames of the two kernel programs are the generated ones; the reference's frame is its
   run with the result dropped; the kernel's idealization rewrote nothing, so `preserves` is `True`. -/
import proofs.«180183_j28930899706274_1_alg».proof.Defs
import proofs.«180183_j28930899706274_1_alg».proof.Proof.Gen.Kernel
import proofs.«180183_j28930899706274_1_alg».proof.Proof.Gen.Kernel.Skeleton
import proofs.«180183_j28930899706274_1_alg».proof.Proof.Gen.Kernel.Launch
import proofs.«180183_j28930899706274_1_alg».proof.Proof.Gen.Kernel.Points
import proofs.«180183_j28930899706274_1_alg».proof.Proof.Gen.Kernel.Frame
import proofs.«180183_j28930899706274_1_alg».proof.Proof.Gen.KernelIdeal
import proofs.«180183_j28930899706274_1_alg».proof.Proof.Gen.KernelIdeal.Skeleton
import proofs.«180183_j28930899706274_1_alg».proof.Proof.Gen.KernelIdeal.Launch
import proofs.«180183_j28930899706274_1_alg».proof.Proof.Gen.KernelIdeal.Points
import proofs.«180183_j28930899706274_1_alg».proof.Proof.Gen.KernelIdeal.Frame
import proofs.«180183_j28930899706274_1_alg».proof.Proof.Gen.KernelIdeal.Value
import proofs.«180183_j28930899706274_1_alg».proof.Proof.Gen.ReferenceIdeal
import proofs.«180183_j28930899706274_1_alg».proof.Proof.Gen.Pre_finite_inputs
import proofs.«180183_j28930899706274_1_alg».proof.Proof.KernelValue
import proofs.«180183_j28930899706274_1_alg».proof.Proof.RefRun
import proofs.«180183_j28930899706274_1_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs and leaves its argument unchanged (the generated frame). -/
theorem frame_kernel : Cert.frame_Kernel := fun m ρ _ => Cert.Kernel.Gen.frame m ρ

/-- So does its idealization (the generated frame). -/
theorem frame_kernelIdeal : Cert.frame_KernelIdeal := fun m ρ _ => Cert.KernelIdeal.Gen.frame m ρ

/-- The reference runs and leaves its argument unchanged: its run, with the result dropped. -/
theorem frame_referenceIdeal : Cert.frame_ReferenceIdeal := fun m ρ _ =>
  (θ_run Cert.ReferenceIdeal.defs _ _).mono (fun _ h c => (h c).2) (Cert.ReferenceIdeal.Hand.run (F := Ideal) m ρ)

/-- The idealization rewrote no operation. -/
theorem preserves : Cert.preserves_Kernel_KernelIdeal := trivial

/-- From memories that agree on the argument both programs end with the result buffer at `G` of the argument: the
    kernel's by blocks (Proof/KernelValue.lean), the reference's through its gather (Proof/RefValue.lean). -/
theorem algebraic : Cert.algebraic_KernelIdeal_ReferenceIdeal := by
  intro m ρ m' ρ' _ hagree
  refine ⟨fun c => Cert.Pairs.G (m ((c.tc : Thread Cert.KernelIdeal.nD Cert.KernelIdeal.τ).loc Cert.KernelIdeal.main_arg0)),
    Cert.KernelIdeal.Hand.run m ρ, ?_⟩
  refine (θ_run Cert.ReferenceIdeal.defs _ _).mono (fun _ h c => ⟨?_, (h c).2⟩)
    (Cert.ReferenceIdeal.Hand.run (F := Ideal) m' ρ')
  rw [(h c).1, Cert.ReferenceIdeal.Hand.result_eq, hagree c]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
